-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000 : Shape := ⟨1, ![20000000]⟩
abbrev S2000000 : Shape := ⟨1, ![2000000]⟩
abbrev S2000000x1 : Shape := ⟨2, ![2000000, 1]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S2000000x1 : S_.BroadcastsInDim S2000000x1 (![] : Fin 0 → Fin S2000000x1.rank)
  reducesTo_S2000000x1_S_d0_1 : S2000000x1.ReducesTo [0, 1] S_

variable [Facts]

def fn_part1 {F : FTy → Type} [FloatOps F] (main_arg4 : FVec F S2000000 .f32) (main_v13 : IVec S_ 1) (main_v16 : IVec S2000000x1 1) : IVec S_ 1 :=
  let main_c_5 : IVec S_ 1 := constantI S_ 1 1#1
  let main_v17 : IVec S_ 1 := (fun x v => Host.reduce IntOp.andi x v reducesTo_S2000000x1_S_d0_1 h_S_) main_v16 main_c_5
  let main_v18 : IVec S_ 1 := andi main_v13 main_v17
  let main_v19 : FVec F S2000000 .f32 := Host.absf main_arg4
  let main_cst_6 : FVec F S_ .f32 := constant S_ .f32 0x7F800000#32
  let main_v20 : FVec F S2000000 .f32 := broadcastInDim S2000000 ![] bcast_S_S2000000 main_cst_6
  let main_v21 : IVec S2000000 1 := cmpf .olt main_v19 main_v20
  let main_c_7 : IVec S_ 1 := constantI S_ 1 1#1
  let main_v22 : IVec S_ 1 := (fun x v => Host.reduce IntOp.andi x v reducesTo_S2000000_S_d0 h_S_) main_v21 main_c_7
  let main_v23 : IVec S_ 1 := andi main_v18 main_v22
  main_v23

def fn {F : FTy → Type} [FloatOps F] (main_arg0 : FVec F S20000000 .f32) (main_arg1 : FVec F S2000000 .f32) (main_arg2 : FVec F S2000000x1 .f32) (main_arg3 : FVec F S2000000x1 .f32) (main_arg4 : FVec F S2000000 .f32) (main_arg5 : IVec S20000000 32) (main_arg6 : IVec S20000000 32) : IVec S_ 1 :=
  let main_v0 : FVec F S20000000 .f32 := Host.absf main_arg0
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000x1 .f32 := Host.absf main_arg2
  let main_cst_2 : FVec F S_ .f32 := constant S_ .f32 0x7F800000#32
  let main_v10 : FVec F S2000000x1 .f32 := broadcastInDim S2000000x1 ![] bcast_S_S2000000x1 main_cst_2
  let main_v11 : IVec S2000000x1 1 := cmpf .olt main_v9 main_v10
  let main_c_3 : IVec S_ 1 := constantI S_ 1 1#1
  let main_v12 : IVec S_ 1 := (fun x v => Host.reduce IntOp.andi x v reducesTo_S2000000x1_S_d0_1 h_S_) main_v11 main_c_3
  let main_v13 : IVec S_ 1 := andi main_v8 main_v12
  let main_v14 : FVec F S2000000x1 .f32 := Host.absf main_arg3
  let main_cst_4 : FVec F S_ .f32 := constant S_ .f32 0x7F800000#32
  let main_v15 : FVec F S2000000x1 .f32 := broadcastInDim S2000000x1 ![] bcast_S_S2000000x1 main_cst_4
  let main_v16 : IVec S2000000x1 1 := cmpf .olt main_v14 main_v15
  fn_part1 (F := F) main_arg4 main_v13 main_v16
-- ==== Kernel.lean ====
abbrev S20000000 : Shape := ⟨1, ![20000000]⟩
abbrev S2000000 : Shape := ⟨1, ![2000000]⟩
abbrev S2000000x1 : Shape := ⟨2, ![2000000, 1]⟩
abbrev S_ : Shape := ⟨0, ![]⟩
abbrev S20000000x1 : Shape := ⟨2, ![20000000, 1]⟩
abbrev S20000000x2 : Shape := ⟨2, ![20000000, 2]⟩
abbrev S15625x128 : Shape := ⟨2, ![15625, 128]⟩
abbrev S1x1 : Shape := ⟨2, ![1, 1]⟩
abbrev S1x15625x128 : Shape := ⟨3, ![1, 15625, 128]⟩
abbrev S1 : Shape := ⟨1, ![1]⟩
abbrev S1x1x1 : Shape := ⟨3, ![1, 1, 1]⟩

abbrev nBuf : Space → Nat
  | .hbm => 34
  | .vmem => 5
  | .smem => 0
  | _ => 0

abbrev bufTy : (tb : Table) → Fin (tcTables nBuf tb) → BufTy
  | .hbm, ⟨0, _⟩ => ⟨S20000000, .f32⟩
  | .hbm, ⟨1, _⟩ => ⟨S2000000, .f32⟩
  | .hbm, ⟨2, _⟩ => ⟨S2000000x1, .f32⟩
  | .hbm, ⟨3, _⟩ => ⟨S2000000x1, .f32⟩
  | .hbm, ⟨4, _⟩ => ⟨S2000000, .f32⟩
  | .hbm, ⟨5, _⟩ => ⟨S20000000, .i32⟩
  | .hbm, ⟨6, _⟩ => ⟨S20000000, .i32⟩
  | .hbm, ⟨7, _⟩ => ⟨S_, .i32⟩
  | .hbm, ⟨8, _⟩ => ⟨S20000000, .i32⟩
  | .hbm, ⟨9, _⟩ => ⟨S20000000, .i1⟩
  | .hbm, ⟨10, _⟩ => ⟨S_, .i32⟩
  | .hbm, ⟨11, _⟩ => ⟨S20000000, .i32⟩
  | .hbm, ⟨12, _⟩ => ⟨S20000000, .i32⟩
  | .hbm, ⟨13, _⟩ => ⟨S20000000, .i32⟩
  | .hbm, ⟨14, _⟩ => ⟨S_, .i32⟩
  | .hbm, ⟨15, _⟩ => ⟨S20000000, .i32⟩
  | .hbm, ⟨16, _⟩ => ⟨S20000000, .i32⟩
  | .hbm, ⟨17, _⟩ => ⟨S20000000x1, .i32⟩
  | .hbm, ⟨18, _⟩ => ⟨S20000000x1, .i32⟩
  | .hbm, ⟨19, _⟩ => ⟨S20000000x2, .i32⟩
  | .hbm, ⟨20, _⟩ => ⟨S20000000, .f32⟩
  | .hbm, ⟨21, _⟩ => ⟨S20000000, .f32⟩
  | .hbm, ⟨22, _⟩ => ⟨S_, .f32⟩
  | .hbm, ⟨23, _⟩ => ⟨S2000000, .f32⟩
  | .hbm, ⟨24, _⟩ => ⟨S20000000x1, .i32⟩
  | .hbm, ⟨25, _⟩ => ⟨S2000000, .f32⟩
  | .hbm, ⟨26, _⟩ => ⟨S15625x128, .f32⟩
  | .hbm, ⟨27, _⟩ => ⟨S15625x128, .f32⟩
  | .hbm, ⟨28, _⟩ => ⟨S15625x128, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S15625x128, .f32⟩
  | .local _ .vmem, ⟨1, _⟩ => ⟨S15625x128, .f32⟩
  | .local _ .vmem, ⟨2, _⟩ => ⟨S15625x128, .f32⟩
  | .local _ .vmem, ⟨3, _⟩ => ⟨S1x1, .f32⟩
  | .local _ .vmem, ⟨4, _⟩ => ⟨S1x1, .f32⟩
  | _, _ => ⟨S20000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S15625x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15625x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15625x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S20000000 : S_.BroadcastsInDim S20000000 (![] : Fin 0 → Fin S20000000.rank)
  bcast_S20000000_S20000000x1_0 : S20000000.BroadcastsInDim S20000000x1 (![0] : Fin 1 → Fin S20000000x1.rank)
  concatenates_S20000000x1_S20000000x1_S20000000x2_d1 : Shape.Concatenates [S20000000x1, S20000000x1] S20000000x2 1
  bcast_S_S2000000 : S_.BroadcastsInDim S2000000 (![] : Fin 0 → Fin S2000000.rank)
  shapeCasts_S2000000_S15625x128 : S2000000.ShapeCasts S15625x128
  inb_S15625x128_S15625x128_0_0 : ∀ a, (![0, 0] : Fin 2 → Nat) a + S15625x128.size a ≤ S15625x128.size a
  h_S15625x128 : 0 < S15625x128.numel
  shapeCasts_S15625x128_S15625x128 : S15625x128.ShapeCasts S15625x128
  shapeCasts_S15625x128_S1x15625x128 : S15625x128.ShapeCasts S1x15625x128
  reduces_S1x15625x128_S1 : S1x15625x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  gather_S2000000x1_S20000000x2_S20000000_n_01_n_n_01_1_11_wf : GatherDims.WF S2000000x1 S20000000x2 S20000000 [] [0, 1] [] [0, 1] [] 1 ![1, 1]
  scatter_S2000000_S20000000x1_S20000000_n_0_0_1_wf : ScatterDims.WF S2000000 S20000000x1 S20000000 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S15625x128.size a ≤ S15625x128.size a
  hwx0_0 : ∀ i : grid0.Coords, EltTy.bits .f32 = 32 ∨ (Rect.block (s := S15625x128) S15625x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15625x128.size a ≤ S15625x128.size a
  hwx0_1 : ∀ i : grid0.Coords, EltTy.bits .f32 = 32 ∨ (Rect.block (s := S15625x128) S15625x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15625x128.size a ≤ S15625x128.size a
  hwx0_2 : ∀ i : grid0.Coords, EltTy.bits .f32 = 32 ∨ (Rect.block (s := S15625x128) S15625x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S2000000x1_S20000000x2_S20000000_n_01_n_n_01_1_11 : GatherDims S2000000x1 S20000000x2 S20000000 where
  offsetDims := []
  collapsedSliceDims := [0, 1]
  operandBatchingDims := []
  startIndicesBatchingDims := []
  startIndexMap := [0, 1]
  indexVectorDim := 1
  sliceSizes := ![1, 1]
  wf := gather_S2000000x1_S20000000x2_S20000000_n_01_n_n_01_1_11_wf
def scatter_S2000000_S20000000x1_S20000000_n_0_0_1 : ScatterDims S2000000 S20000000x1 S20000000 where
  updateWindowDims := []
  insertedWindowDims := [0]
  scatterDimsToOperandDims := [0]
  indexVectorDim := 1
  wf := scatter_S2000000_S20000000x1_S20000000_n_0_0_1_wf

abbrev win0_0 : Pipeline.Window sig grid0 :=
  Pipeline.Window.ofSpec (Memref.whole main_v15) S15625x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S15625x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S15625x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20000000 : Shape := ⟨1, ![20000000]⟩
abbrev S2000000 : Shape := ⟨1, ![2000000]⟩
abbrev S2000000x1 : Shape := ⟨2, ![2000000, 1]⟩
abbrev S_ : Shape := ⟨0, ![]⟩
abbrev S20000000x1 : Shape := ⟨2, ![20000000, 1]⟩
abbrev S20000000x2 : Shape := ⟨2, ![20000000, 2]⟩

abbrev nBuf : Space → Nat
  | .hbm => 45
  | .vmem => 0
  | .smem => 0
  | _ => 0

abbrev bufTy : (tb : Table) → Fin (tcTables nBuf tb) → BufTy
  | .hbm, ⟨0, _⟩ => ⟨S20000000, .f32⟩
  | .hbm, ⟨1, _⟩ => ⟨S2000000, .f32⟩
  | .hbm, ⟨2, _⟩ => ⟨S2000000x1, .f32⟩
  | .hbm, ⟨3, _⟩ => ⟨S2000000x1, .f32⟩
  | .hbm, ⟨4, _⟩ => ⟨S2000000, .f32⟩
  | .hbm, ⟨5, _⟩ => ⟨S20000000, .i32⟩
  | .hbm, ⟨6, _⟩ => ⟨S20000000, .i32⟩
  | .hbm, ⟨7, _⟩ => ⟨S_, .i32⟩
  | .hbm, ⟨8, _⟩ => ⟨S20000000, .i32⟩
  | .hbm, ⟨9, _⟩ => ⟨S20000000, .i1⟩
  | .hbm, ⟨10, _⟩ => ⟨S_, .i32⟩
  | .hbm, ⟨11, _⟩ => ⟨S20000000, .i32⟩
  | .hbm, ⟨12, _⟩ => ⟨S20000000, .i32⟩
  | .hbm, ⟨13, _⟩ => ⟨S20000000, .i32⟩
  | .hbm, ⟨14, _⟩ => ⟨S_, .i32⟩
  | .hbm, ⟨15, _⟩ => ⟨S20000000, .i32⟩
  | .hbm, ⟨16, _⟩ => ⟨S20000000, .i32⟩
  | .hbm, ⟨17, _⟩ => ⟨S20000000x1, .i32⟩
  | .hbm, ⟨18, _⟩ => ⟨S20000000x1, .i32⟩
  | .hbm, ⟨19, _⟩ => ⟨S20000000x2, .i32⟩
  | .hbm, ⟨20, _⟩ => ⟨S20000000, .f32⟩
  | .hbm, ⟨21, _⟩ => ⟨S20000000, .f32⟩
  | .hbm, ⟨22, _⟩ => ⟨S_, .f32⟩
  | .hbm, ⟨23, _⟩ => ⟨S2000000, .f32⟩
  | .hbm, ⟨24, _⟩ => ⟨S20000000x1, .i32⟩
  | .hbm, ⟨25, _⟩ => ⟨S2000000, .f32⟩
  | .hbm, ⟨26, _⟩ => ⟨S2000000x1, .f32⟩
  | .hbm, ⟨27, _⟩ => ⟨S2000000x1, .f32⟩
  | .hbm, ⟨28, _⟩ => ⟨S2000000x1, .f32⟩
  | .hbm, ⟨29, _⟩ => ⟨S2000000x1, .f32⟩
  | .hbm, ⟨30, _⟩ => ⟨S2000000x1, .f32⟩
  | .hbm, ⟨31, _⟩ => ⟨S_, .f32⟩
  | .hbm, ⟨32, _⟩ => ⟨S2000000x1, .f32⟩
  | .hbm, ⟨33, _⟩ => ⟨S2000000x1, .f32⟩
  | .hbm, ⟨34, _⟩ => ⟨S2000000x1, .f32⟩
  | .hbm, ⟨35, _⟩ => ⟨S2000000x1, .f32⟩
  | .hbm, ⟨36, _⟩ => ⟨S2000000x1, .f32⟩
  | .hbm, ⟨37, _⟩ => ⟨S_, .f32⟩
  | .hbm, ⟨38, _⟩ => ⟨S_, .f32⟩
  | .hbm, ⟨39, _⟩ => ⟨S2000000, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S20000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)
  bcast_S20000000_S20000000x1_0 : S20000000.BroadcastsInDim S20000000x1 (![0] : Fin 1 → Fin S20000000x1.rank)
  concatenates_S20000000x1_S20000000x1_S20000000x2_d1 : Shape.Concatenates [S20000000x1, S20000000x1] S20000000x2 1
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  reducesTo_S2000000x1_S_d0_1 : S2000000x1.ReducesTo [0, 1] S_
  h_S_ : 0 < S_.numel
  reducesTo_S2000000_S_d0 : S2000000.ReducesTo [0] S_
  gather_S2000000x1_S20000000x2_S20000000_n_01_n_n_01_1_11_wf : GatherDims.WF S2000000x1 S20000000x2 S20000000 [] [0, 1] [] [0, 1] [] 1 ![1, 1]
  scatter_S2000000_S20000000x1_S20000000_n_0_0_1_wf : ScatterDims.WF S2000000 S20000000x1 S20000000 [] [0] [0] 1

variable [Facts₀]

def gather_S2000000x1_S20000000x2_S20000000_n_01_n_n_01_1_11 : GatherDims S2000000x1 S20000000x2 S20000000 where
  offsetDims := []
  collapsedSliceDims := [0, 1]
  operandBatchingDims := []
  startIndicesBatchingDims := []
  startIndexMap := [0, 1]
  indexVectorDim := 1
  sliceSizes := ![1, 1]
  wf := gather_S2000000x1_S20000000x2_S20000000_n_01_n_n_01_1_11_wf
def scatter_S2000000_S20000000x1_S20000000_n_0_0_1 : ScatterDims S2000000 S20000000x1 S20000000 where
  updateWindowDims := []
  insertedWindowDims := [0]
  scatterDimsToOperandDims := [0]
  indexVectorDim := 1
  wf := scatter_S2000000_S20000000x1_S20000000_n_0_0_1_wf

class Facts : Prop extends Facts₀ where

variable [Facts]
-- ==== Proof.KernelRun.lean ====
/-
  What the kernel program computes, read off its frame run.

  The program: the host forms the sparse product `Ax` (gather `x` at the column indices, scale by the values,
  scatter-add by the row indices), reshapes `Ax`, `b` and the indicator `w` from 2000000 to 15625 x 128, and launches
  ONE grid point whose three input blocks are the whole arrays and whose two 1 x 1 result blocks are the whole
  results; after the call it turns the two results into scalars and divides.  The generated frame run states, of
  the result buffer, the host lines after the call applied to the arrays as the call leaves them.  Here that is
  read as `result` of the argument arrays, at any float instance:

  * `entry_ax`, `entry_b`, `entry_w`: the three arrays as the call finds them (the host lines before it, composed);
  * `iblk0_eq` ...: each input block IS its array (block index (0,0), block size the array's);
  * `out3_eq`, `out4_eq`: what the body leaves in each result's buffer is its one stored payload;
  * `whole_out3`, `whole_out4`, `flushed3_eq`, `flushed4_eq`: the one write-back writes that payload, and the one
    block covers the 1 x 1 result (`final3`, `final4`);
  * `tail_of`, `value_eq`: the two host reshapes and the division after the call;
  * `run`: the frame run re-posted with the result named.

  What is said of a block or of a buffer holds whatever its contents are, and is stated so.
-/
import proofs.«413770_j62002147885374_3_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

/-- `Ax`: the host lines before the call, composed — negative column indices wrapped by the extent, `x` gathered at
    (column, 0), scaled by the values, scatter-added into zeros by the row indices. -/
def sparseProduct (vals : (⟨S20000000, .f32⟩ : BufTy).Contents (Elt F)) (x : (⟨S2000000x1, .f32⟩ : BufTy).Contents (Elt F))
    (rows cols : (⟨S20000000, .i32⟩ : BufTy).Contents (Elt F)) : (⟨S2000000, .f32⟩ : BufTy).Contents (Elt F) :=
  Host.scatterAdd scatter_S2000000_S20000000x1_S20000000_n_0_0_1
    (broadcastInDim S2000000 ![] bcast_S_S2000000 (constant S_ .f32 0x00000000#32))
    (broadcastInDim S20000000x1 ![0] bcast_S20000000_S20000000x1_0 rows)
    (mulf vals (Host.gather gather_S2000000x1_S20000000x2_S20000000_n_01_n_n_01_1_11 x
      (concatenate S20000000x2 1
        [⟨S20000000x1, broadcastInDim S20000000x1 ![0] bcast_S20000000_S20000000x1_0
            (select (cmpi .slt cols (broadcastInDim S20000000 ![] bcast_S_S20000000 (constantI S_ 32 0#32)))
              (addi cols (broadcastInDim S20000000 ![] bcast_S_S20000000 (constantI S_ 32 2000000#32))) cols)⟩,
         ⟨S20000000x1, broadcastInDim S20000000x1 ![0] bcast_S20000000_S20000000x1_0
            (id (broadcastInDim S20000000 ![] bcast_S_S20000000 (constantI S_ 32 0#32)))⟩]
        concatenates_S20000000x1_S20000000x1_S20000000x2_d1)))

variable (m : (ℓ : Loc nD τ sig) → Buf (Elt F) ℓ) (ρ : Dev nD → PrngReg)

set_option maxHeartbeats 2000000 in
/-- The first array the call finds: `Ax` reshaped. -/
theorem entry_ax (c : Dev nD) : (V m c main_v15 : S15625x128.Idx → Elt F .f32) =
    shapeCast S15625x128 (sparseProduct (m ((c : Thread nD τ).loc main_arg0)) (m ((c : Thread nD τ).loc main_arg3))
      (m ((c : Thread nD τ).loc main_arg5)) (m ((c : Thread nD τ).loc main_arg6))) shapeCasts_S2000000_S15625x128 := by
  show StableHlo.after hostOps0 (fun b => m (c, b)) (Proc.devRef .tc main_v15) = _
  after_results
  rfl

set_option maxHeartbeats 2000000 in
/-- The second: `b` reshaped. -/
theorem entry_b (c : Dev nD) : (V m c main_v16 : S15625x128.Idx → Elt F .f32) =
    shapeCast S15625x128 (m ((c : Thread nD τ).loc main_arg1)) shapeCasts_S2000000_S15625x128 := by
  show StableHlo.after hostOps0 (fun b => m (c, b)) (Proc.devRef .tc main_v16) = _
  after_results
  rfl

set_option maxHeartbeats 2000000 in
/-- The third: the indicator reshaped. -/
theorem entry_w (c : Dev nD) : (V m c main_v17 : S15625x128.Idx → Elt F .f32) =
    shapeCast S15625x128 (m ((c : Thread nD τ).loc main_arg4)) shapeCasts_S2000000_S15625x128 := by
  show StableHlo.after hostOps0 (fun b => m (c, b)) (Proc.devRef .tc main_v17) = _
  after_results
  rfl

/-- The body's accesses start at the origin of their buffers. -/
theorem hz : (![0, 0] : Fin 2 → Nat) = fun _ => 0 := funext fun a => by fin_cases a <;> rfl

/-- At the one grid point every block's offset in its array is zero. -/
theorem off_in (t : Fin cfg0.N) : (fun a => win0_0.index t a * S15625x128.size a) = fun _ => 0 :=
  funext fun a => (by decide +kernel : ∀ (t : Fin grid0.N) (a : Fin 2), win0_0.index t a * S15625x128.size a = 0) t a

/-- Each input block is its whole array. -/
theorem iblk0_eq (c : Dev nD) (t : Fin cfg0.N) : (iblk m c 0 t : S15625x128.Idx → Elt F .f32) = V m c main_v15 := by
  unfold iblk
  exact Memref.read_access_unit_zero (Elt F) main_v15 (off_in t) (fun a => by rw [congrFun (off_in t) a]; simp) (V m c main_v15)

/-- What the body leaves in the first result's buffer is its payload of the three blocks. -/
theorem out3_eq (x0 x1 x2 : Vec F S15625x128 .f32) : out0_3 x0 x1 x2 = k0_pay2 x0 x1 x2 := by
  unfold out0_3
  rw [View.canon_unit_zero hz]
  simp only [View.ld_unit_zero (S := S15625x128) hz]

/-- And in the second result's buffer. -/
theorem out4_eq (x0 x1 x2 : Vec F S15625x128 .f32) : out0_4 x0 x1 x2 = k0_pay3 x1 := by
  unfold out0_4
  rw [View.canon_unit_zero hz]
  simp only [View.ld_unit_zero (S := S15625x128) hz]

theorem off_in1 (t : Fin cfg0.N) : (fun a => win0_1.index t a * S15625x128.size a) = fun _ => 0 :=
  funext fun a => (by decide +kernel : ∀ (t : Fin grid0.N) (a : Fin 2), win0_1.index t a * S15625x128.size a = 0) t a
theorem off_in2 (t : Fin cfg0.N) : (fun a => win0_2.index t a * S15625x128.size a) = fun _ => 0 :=
  funext fun a => (by decide +kernel : ∀ (t : Fin grid0.N) (a : Fin 2), win0_2.index t a * S15625x128.size a = 0) t a
theorem off_out3 (t : Fin cfg0.N) : (fun a => win0_3.index t a * S1x1.size a) = fun _ => 0 :=
  funext fun a => (by decide +kernel : ∀ (t : Fin grid0.N) (a : Fin 2), win0_3.index t a * S1x1.size a = 0) t a
theorem off_out4 (t : Fin cfg0.N) : (fun a => win0_4.index t a * S1x1.size a) = fun _ => 0 :=
  funext fun a => (by decide +kernel : ∀ (t : Fin grid0.N) (a : Fin 2), win0_4.index t a * S1x1.size a = 0) t a

theorem iblk1_eq (c : Dev nD) (t : Fin cfg0.N) : (iblk m c 1 t : S15625x128.Idx → Elt F .f32) = V m c main_v16 := by
  unfold iblk
  exact Memref.read_access_unit_zero (Elt F) main_v16 (off_in1 t) (fun a => by rw [congrFun (off_in1 t) a]; simp) (V m c main_v16)
theorem iblk2_eq (c : Dev nD) (t : Fin cfg0.N) : (iblk m c 2 t : S15625x128.Idx → Elt F .f32) = V m c main_v17 := by
  unfold iblk
  exact Memref.read_access_unit_zero (Elt F) main_v17 (off_in2 t) (fun a => by rw [congrFun (off_in2 t) a]; simp) (V m c main_v17)

/-- Each result is a 1 x 1 array and its one block is the whole array: what the one grid point writes back is the
    staging buffer's content, whatever it is. -/
theorem whole_out3 (t : Fin cfg0.N) (P : Vec F S1x1 .f32) :
    (cfg0.win 3).cut (grid0.coords t) P = ((cfg0.win 3).blk t).view.read (Elt F) P :=
  (Memref.read_access_unit_zero (Elt F) main_v18_0 (off_out3 t) (fun a => by rw [congrFun (off_out3 t) a]; simp) P).symm

theorem whole_out4 (t : Fin cfg0.N) (P : Vec F S1x1 .f32) :
    (cfg0.win 4).cut (grid0.coords t) P = ((cfg0.win 4).blk t).view.read (Elt F) P :=
  (Memref.read_access_unit_zero (Elt F) main_v18_1 (off_out4 t) (fun a => by rw [congrFun (off_out4 t) a]; simp) P).symm

/-- The one grid point writes back, into the first result, the payload of the three arrays as the call finds them. -/
theorem flushed3_eq (c : Dev nD) (t : Fin cfg0.N) :
    (dats m 0 c).flushed 3 t = ((cfg0.win 3).blk t).view.read (Elt F) (k0_pay2 (V m c main_v15) (V m c main_v16) (V m c main_v17)) := by
  show (cfg0.win 3).cut (grid0.coords t) ((dats m 0 c).after 3 t) = _
  rw [after0_3, out3_eq (iblk m c 0 t) (iblk m c 1 t) (iblk m c 2 t), iblk0_eq m c t, iblk1_eq m c t, iblk2_eq m c t]
  exact whole_out3 t _

/-- And, into the second result, the payload of `b`. -/
theorem flushed4_eq (c : Dev nD) (t : Fin cfg0.N) :
    (dats m 0 c).flushed 4 t = ((cfg0.win 4).blk t).view.read (Elt F) (k0_pay3 (V m c main_v16)) := by
  show (cfg0.win 4).cut (grid0.coords t) ((dats m 0 c).after 4 t) = _
  rw [after0_4, out4_eq (iblk m c 0 t) (iblk m c 1 t) (iblk m c 2 t), iblk1_eq m c t]
  exact whole_out4 t _

/-- The first result array after the call: its one block covers it. -/
theorem final3 (c : Dev nD) :
    (dats m 0 c).arrAt 3 cfg0.N = k0_pay2 (V m c main_v15) (V m c main_v16) (V m c main_v17) :=
  (dats m 0 c).arrAt_eq_of_cover 3 _ (fun t _ => flushed3_eq m c t) fun i =>
    ⟨t0_0, flush0_3 t0_0, by
      show i ∈ ((View.whole main_v18_0).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 1 from by decide +kernel]; omega⟩

/-- The second result array after the call. -/
theorem final4 (c : Dev nD) :
    (dats m 0 c).arrAt 4 cfg0.N = k0_pay3 (V m c main_v16) :=
  (dats m 0 c).arrAt_eq_of_cover 4 _ (fun t _ => flushed4_eq m c t) fun i =>
    ⟨t0_0, flush0_4 t0_0, by
      show i ∈ ((View.whole main_v18_1).slice (win0_4.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 1 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 1 from by decide +kernel]; omega⟩

/-- The host lines after the call turn the two 1 x 1 results into scalars and divide: stated for ANY contents the
    call may leave in its arrays, `P2` and `P3` being what the two result arrays hold. -/
theorem tail_of (c : Dev nD) (A : (w : Fin cfg0.W) → Buf (Elt F) (((cfgs 0).spec w).arr.view.loc (c.tc : Thread nD τ)))
    (P2 P3 : Vec F S1x1 .f32)
    (h3 : (Pipeline.withArrays (cfgs 0).spec c (V0 m c) A (Proc.devRef .tc main_v18_0) : S1x1.Idx → Elt F .f32) = P2)
    (h4 : (Pipeline.withArrays (cfgs 0).spec c (V0 m c) A (Proc.devRef .tc main_v18_1) : S1x1.Idx → Elt F .f32) = P3) :
    StableHlo.after hostOps1 (Pipeline.withArrays (cfgs 0).spec c (V0 m c) A) (Proc.devRef .tc main_v21)
      = Host.divf (shapeCast S_ P2 shapeCasts_S1x1_S_) (shapeCast S_ P3 shapeCasts_S1x1_S_) := by
  after_results
  rw [h3, h4]
  rfl

/-- The program's result as a function of its argument arrays: the two stored values of the kernel body, at the
    sparse product, `b` and the indicator reshaped to 15625 x 128, turned into scalars and divided. -/
def result (vals : (⟨S20000000, .f32⟩ : BufTy).Contents (Elt F)) (b : (⟨S2000000, .f32⟩ : BufTy).Contents (Elt F))
    (x : (⟨S2000000x1, .f32⟩ : BufTy).Contents (Elt F)) (w : (⟨S2000000, .f32⟩ : BufTy).Contents (Elt F))
    (rows cols : (⟨S20000000, .i32⟩ : BufTy).Contents (Elt F)) : (⟨S_, .f32⟩ : BufTy).Contents (Elt F) :=
  Host.divf
    (shapeCast S_ (k0_pay2 (shapeCast S15625x128 (sparseProduct vals x rows cols) shapeCasts_S2000000_S15625x128)
      (shapeCast S15625x128 b shapeCasts_S2000000_S15625x128) (shapeCast S15625x128 w shapeCasts_S2000000_S15625x128))
      shapeCasts_S1x1_S_)
    (shapeCast S_ (k0_pay3 (shapeCast S15625x128 b shapeCasts_S2000000_S15625x128)) shapeCasts_S1x1_S_)

/-- What the frame run's post says of the result buffer is `result` of the arguments. -/
theorem value_eq (c : Dev nD) :
    Pipeline.afterTail₀ cfgs (dats m) 0 (V0 m) [hostOps1] c main_v21
      = result (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) := by
  unfold Pipeline.afterTail₀ result
  show StableHlo.after hostOps1 _ (Proc.devRef .tc main_v21) = _
  refine tail_of m c _ _ _
    ((Pipeline.withArrays_arr spec0 launch0.win.arr_inj c _ _ 3).trans ((final3 m c).trans ?_))
    ((Pipeline.withArrays_arr spec0 launch0.win.arr_inj c _ _ 4).trans ((final4 m c).trans ?_))
  · rw [entry_ax, entry_b, entry_w]
  · rw [entry_b]

/-- THE RUN, READ: every weakly fair execution of the program ends with its result buffer at `result` of the argument
    arrays, and the arguments unchanged. -/
theorem run : θ_run defs (onTc (τ := τ) (main (F := F))) ⟨m, fun _ => 0, ρ⟩ fun r => ∀ c : Dev nD,
      r.2.mem ((c.tc : Thread nD τ).loc main_v21)
        = result (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v21 (Pipeline.mem_restRefs_of main_v21 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand
end
-- ==== Proof.LibMaxAll.lean ====
/-
  The maximum of all entries of an array, and why it does not depend on the array's layout.

  The certificate compares two maxima of the same two million numbers, one taken over a 15625 x 128 tile and
  one over a 2000000 x 1 column.  `maxAll acc x` is the maximum of every entry of `x` (extended reals), started
  from the value of the accumulator word `acc`.  Three facts carry the comparison:

  * a fold of a commutative, associative operation over ALL of a finite type does not change when the type is
    re-indexed along a bijection (`fold_univ_equiv`), so `maxAll` of an array read through a bijection of its
    indices is `maxAll` of the array (`maxAll_comp_equiv`); a reshape only renumbers the entries in row-major
    order (`maxAll_shapeCast`);
  * a host `stablehlo.reduce` with body `maximum` onto a shape with one index is `maxAll` of its operand
    (`hostReduce_eq_maxAll`): the source indices that drop to the one target index are all of them;
  * so is a kernel's `vector.multi_reduction <maximumf>` onto a shape with one index
    (`multiReduction_eq_maxAll`).

  Nothing else about `maxAll` is used afterwards: it is known only through these facts.
-/
import Idealize.ShloMosaic.PureOps.Reduce
import Idealize.ShloMosaic.PureOps.Ideal.Laws

noncomputable section

namespace Cert.FoldAll

open Idealize.ShloMosaic

variable {α β γ : Type}

/-- Re-indexing a whole finite type along a bijection does not change a commutative, associative fold over it. -/
theorem fold_univ_equiv [Fintype α] [Fintype β] (op : γ → γ → γ) [Std.Commutative op] [Std.Associative op]
    (e : α ≃ β) (b : γ) (f : β → γ) :
    Finset.univ.fold op b (fun a => f (e a)) = Finset.univ.fold op b f := by
  rw [← Finset.map_univ_equiv e, Finset.fold_map]
  rfl

/-- The maximum of every entry of `x`, from the value of the accumulator word. -/
def maxAll {s : Shape} (acc : BitVec 32) (x : FVec Ideal s .f32) : Ideal .f32 :=
  Finset.univ.fold FloatOps.maximumf (FloatOps.ofBits .f32 acc) x

/-- Reading an array through a bijection of its indices keeps the maximum of all its entries. -/
theorem maxAll_comp_equiv {s t : Shape} (acc : BitVec 32) (e : t.Idx ≃ s.Idx) (x : FVec Ideal s .f32) :
    maxAll acc (fun i => x (e i)) = maxAll acc x :=
  fold_univ_equiv _ e _ x

/-- A reshape keeps every entry, so it keeps their maximum. -/
theorem maxAll_shapeCast {s t : Shape} (acc : BitVec 32) (x : FVec Ideal s .f32) (h : s.ShapeCasts t) :
    maxAll acc (shapeCast t x h) = maxAll acc x :=
  maxAll_comp_equiv acc (Shape.reshapeEquiv h) x

/-- A host maximum-reduction onto a shape with one index is the maximum of all its operand's entries. -/
theorem hostReduce_eq_maxAll {s t u : Shape} {axes : List (Fin s.rank)} (x : FVec Ideal s .f32) (acc : BitVec 32)
    (init : u.Idx → Ideal .f32) (hinit : ∀ i, init i = FloatOps.ofBits .f32 acc) (h : s.ReducesTo axes t)
    (hu : 0 < u.numel) [Subsingleton t.Idx] (j : t.Idx) :
    Host.reduce FloatOps.maximumf x init h hu j = maxAll acc x := by
  rw [Host.reduce_eq_fold, Finset.filter_true_of_mem (fun i _ => Subsingleton.elim _ _), hinit]
  rfl

/-- A kernel's maximum-reduction onto a shape with one index is the maximum of all its source's entries. -/
theorem multiReduction_eq_maxAll {s t : Shape} {axes : List (Fin s.rank)} (src : FVec Ideal s .f32) (acc : BitVec 32)
    (h : s.Reduces axes t) (hφ : FKind.Formats .f32) (hacc : acc = FKind.maximumf.neutral .f32 hφ)
    [Subsingleton t.Idx] (j : t.Idx) :
    multiReduction .maximumf axes t src acc h hφ hacc j = maxAll acc src := by
  rw [multiReduction_maximumf_eq_fold, Finset.filter_true_of_mem (fun i _ => Subsingleton.elim _ _)]
  rfl

attribute [irreducible] maxAll

end Cert.FoldAll

end
-- ==== Proof.ProjectedResidual.lean ====
/-
  The magnitude of the projected residual, entry by entry.

  With `y = ax - b` the constraint violation and `w` the inequality indicator, both programs form
  `|y + w * max(-y, 0)|` entry by entry before taking the maximum.  `projMag ax b w` is that array, over any
  shape, so that the kernel's 15625 x 128 tile, the reference's 2000000 x 1 column and the flat vector of two
  million entries all carry the same function.  Every operation in it acts entry by entry, so reading the three
  arrays through any map of indices and then forming `projMag` is forming `projMag` and then reading through the
  map (`projMag_comp`); likewise for a plain absolute value (`absf_comp`).
-/
import Idealize.ShloMosaic.PureOps.Ideal
import Idealize.ShloMosaic.PureOps.Vector

noncomputable section

namespace Cert.Residual

open Idealize.ShloMosaic

variable {s t : Shape}

/-- `|y + w * max(-y, 0)|` with `y = ax - b`, entry by entry. -/
def projMag (ax b w : FVec Ideal s .f32) : FVec Ideal s .f32 :=
  absf (addf (subf ax b) (mulf w (maximumf (Host.negf (subf ax b)) (broadcast s (Scalar.ofBits .f32 0x00000000#32)))))

/-- Forming `projMag` commutes with reading the arrays through a map of indices. -/
theorem projMag_comp (e : t.Idx → s.Idx) (ax b w : FVec Ideal s .f32) :
    projMag (fun i => ax (e i)) (fun i => b (e i)) (fun i => w (e i)) = fun i => projMag ax b w (e i) := rfl

/-- So does an absolute value. -/
theorem absf_comp (e : t.Idx → s.Idx) (x : FVec Ideal s .f32) :
    absf (fun i => x (e i)) = fun i => absf x (e i) := rfl

/-- One entry, in the host's spelling of the absolute value and the negation (the same functions on the extended
    reals as the kernel's). -/
theorem projMag_apply (ax b w : FVec Ideal s .f32) (i : s.Idx) :
    projMag ax b w i = FloatOps.hostAbsf (FloatOps.addf (FloatOps.subf (ax i) (b i))
      (FloatOps.mulf (w i) (FloatOps.maximumf (FloatOps.hostNegf (FloatOps.subf (ax i) (b i)))
        (FloatOps.ofBits .f32 0x00000000#32)))) := rfl

end Cert.Residual

end
-- ==== Proof.KernelMax.lean ====
/-
  The kernel's two stored values, as maxima of all entries.

  The kernel body loads three 15625 x 128 tiles `ax`, `b`, `w`, stores `max |y + w * max(0 - y, 0)|` with
  `y = ax - b` into its first 1 x 1 result and `1 + max |b|` into its second.  Here the two stored payloads are
  read, on the extended reals, as `maxAll` of `projMag ax b w` and `1 + maxAll |b|`:

  * the kernel negates by `0 - y`, which on the extended reals is `-y`;
  * its `vector.multi_reduction <maximumf>` over axes 1, 2 of the tile viewed as 1 x 15625 x 128 has a single
    result index, so it is the maximum of all entries, and the 1 x 15625 x 128 view has the tile's entries;
  * the result is then picked out of a one-entry vector and splat to 1 x 1: the same number at the one index.

  The equations for the outer layers (`pick_one`, `splat_apply`, `sum_apply`) hold for any inner array.
-/
import proofs.«413770_j62002147885374_3_alg».proof.Proof.Gen.KernelIdeal.Skeleton
import proofs.«413770_j62002147885374_3_alg».proof.Proof.LibMaxAll
import proofs.«413770_j62002147885374_3_alg».proof.Proof.ProjectedResidual
import Idealize.ShloMosaic.Lib.KernelVsHost
import Idealize.ShloMosaic.Lib.Pipeline.Value

noncomputable section
open Idealize.ShloMosaic

namespace Cert.KernelIdeal.Hand
open Cert.KernelIdeal Cert.KernelIdeal.Gen Cert.Residual Cert.FoldAll

/-- A vector of one entry has one index. -/
instance : Subsingleton S1.Idx := ⟨fun a b => funext fun d => Fin.ext (by
  have hs : S1.size d = 1 := match d with | ⟨0, _⟩ => rfl
  have h1 : (a d).val < 1 := lt_of_lt_of_eq (a d).isLt hs
  have h2 : (b d).val < 1 := lt_of_lt_of_eq (b d).isLt hs
  omega)⟩

/-- Taking entry (0,0,0) of a one-entry vector viewed as 1 x 1 x 1 and splatting it to 1 x 1 is, at the one index,
    the vector's entry. -/
theorem pick_one {γ : Type} (M : S1.Idx → γ) (j : S1x1.Idx) :
    broadcast S1x1 (extractAt ![0, 0, 0] (shapeCast S1x1x1 M shapeCasts_S1_S1x1x1) inpos_S1x1x1_p0_0_0) j
      = M (Shape.reshapeEquiv shapeCasts_S1_S1x1x1 (fun a => ⟨(![0, 0, 0] : Fin 3 → Nat) a, inpos_S1x1x1_p0_0_0 a⟩)) := rfl

/-- A splat reads its value at every index. -/
theorem splat_apply {γ : Type} (t : Shape) (x : γ) (j : t.Idx) : broadcast t x j = x := rfl

/-- A sum of arrays reads, at an index, the sum of the entries there. -/
theorem sum_apply {F : FTy → Type} [FloatOps F] {s : Shape} {φ : FTy} (a b : FVec F s φ) (i : s.Idx) :
    addf a b i = FloatOps.addf (a i) (b i) := rfl

/-- The first stored value: the maximum over the tile of `|y + w * max(-y, 0)|`, `y = ax - b`. -/
theorem pay2_eq (x0 x1 x2 : Vec Ideal S15625x128 .f32) (j : S1x1.Idx) :
    k0_pay2 (F := Ideal) x0 x1 x2 j = maxAll 0xFF800000#32 (projMag x0 x1 x2) := by
  unfold k0_pay2 k0_pay1
  simp only [shapeCast_self]
  rw [subf_zero_eq_hostNegf, pick_one]
  refine (multiReduction_eq_maxAll (t := S1) _ _ _ _ _ _).trans ?_
  rw [maxAll_shapeCast]
  rfl

/-- The second stored value: one plus the maximum over the tile of `|b|`. -/
theorem pay3_eq (x1 : Vec Ideal S15625x128 .f32) (j : S1x1.Idx) :
    k0_pay3 (F := Ideal) x1 j
      = FloatOps.addf (Scalar.ofBits .f32 0x3F800000#32) (maxAll 0xFF800000#32 (absf x1)) := by
  unfold k0_pay3 k0_pay1
  simp only [shapeCast_self]
  rw [sum_apply, pick_one, splat_apply]
  refine congrArg (FloatOps.addf (Scalar.ofBits .f32 0x3F800000#32)) ((multiReduction_eq_maxAll (t := S1) _ _ _ _ _ _).trans ?_)
  rw [maxAll_shapeCast]

end Cert.KernelIdeal.Hand
end
-- ==== Proof.ReferenceMax.lean ====
/-
  The reference's two maxima, as maxima of all entries.

  The reference lifts `Ax`, `b` and the indicator `w` to 2000000 x 1 columns, forms `|y + w * max(-y, 0)|` with
  `y = Ax - b` entry by entry (its `relu` is a maximum with a zero column), and reduces with `maximum` over both
  axes to a scalar; for the denominator it reduces `|b|` over the flat vector.  Here:

  * entry (n, 0) of a column lifted from a flat vector is entry n of the vector, and (n, 0) <-> n is a bijection
    (`colEquiv`), so the maximum of all entries of the column is that of the vector (`maxAll_col`);
  * the column the reference reduces is `projMag Ax b w` read through that bijection (`mag_ref`: one stage of the
    program at a time);
  * a reduction onto a scalar has one result index, so it is the maximum of all entries (`part2_ref`,
    `part3_ref`).

  `Ax`, the sparse product the host computes before anything else, is carried as one unopened term throughout.
-/
import proofs.«413770_j62002147885374_3_alg».proof.Proof.Gen.ReferenceIdeal.Read
import proofs.«413770_j62002147885374_3_alg».proof.Proof.LibMaxAll
import proofs.«413770_j62002147885374_3_alg».proof.Proof.ProjectedResidual

noncomputable section

open Idealize.ShloMosaic

namespace Cert.ReferenceIdeal.Hand

open Cert.ReferenceIdeal Cert.ReferenceIdeal.Read Cert.Residual Cert.FoldAll

/-- A scalar has one index. -/
instance : Subsingleton S_.Idx := ⟨fun a b => funext fun d => d.elim0⟩

/-- Entry (n, 0) of a 2000000 x 1 column is entry n of the flat vector: a bijection of indices. -/
def colEquiv : S2000000x1.Idx ≃ S2000000.Idx where
  toFun i := idx_main_v15 i
  invFun k := fun a => match a with
    | ⟨0, _⟩ => ⟨(k 0).val, (k 0).isLt⟩
    | ⟨1, _⟩ => ⟨0, Nat.zero_lt_one⟩
  left_inv i := by
    funext a
    match a with
    | ⟨0, _⟩ => rfl
    | ⟨1, _⟩ => exact Fin.ext (by have h : (i 1).val < 1 := (i 1).isLt; show 0 = (i 1).val; omega)
  right_inv k := by
    funext a
    match a with
    | ⟨0, _⟩ => rfl

/-- The maximum of all entries of a column lifted from a flat vector is the vector's. -/
theorem maxAll_col (acc : BitVec 32) (x : FVec Ideal S2000000 .f32) :
    maxAll acc (fun i : S2000000x1.Idx => x (idx_main_v15 i)) = maxAll acc x :=
  maxAll_comp_equiv acc colEquiv x

/-- The column the reference reduces is `projMag Ax b w`, entry (n, 0) reading entry n. -/
theorem mag_ref (x0 : (⟨S20000000, .f32⟩ : BufTy).Contents (Elt Ideal)) (x1 : (⟨S2000000, .f32⟩ : BufTy).Contents (Elt Ideal))
    (x3 : (⟨S2000000x1, .f32⟩ : BufTy).Contents (Elt Ideal)) (x4 : (⟨S2000000, .f32⟩ : BufTy).Contents (Elt Ideal))
    (x5 x6 : (⟨S20000000, .i32⟩ : BufTy).Contents (Elt Ideal)) :
    val_main_v23 (F := Ideal) x0 x1 x3 x4 x5 x6
      = fun i => projMag (val_main_v14 (F := Ideal) x0 x3 x5 x6) x1 x4 (idx_main_v15 i) := by
  funext i
  rw [val_main_v23_apply, val_main_v22_apply, val_main_v21_apply, val_main_v20_apply, val_main_v19_apply,
    val_main_v17_apply, val_main_v18_apply, val_main_v15_apply, val_main_v16_apply, val_main_call0_v0_apply,
    val_main_call0_cst_apply, projMag_apply]

/-- The numerator: the maximum of all entries of `projMag Ax b w`. -/
theorem part2_ref (x0 : (⟨S20000000, .f32⟩ : BufTy).Contents (Elt Ideal)) (x1 : (⟨S2000000, .f32⟩ : BufTy).Contents (Elt Ideal))
    (x3 : (⟨S2000000x1, .f32⟩ : BufTy).Contents (Elt Ideal)) (x4 : (⟨S2000000, .f32⟩ : BufTy).Contents (Elt Ideal))
    (x5 x6 : (⟨S20000000, .i32⟩ : BufTy).Contents (Elt Ideal)) (i : S_.Idx) :
    val_main_v24 (F := Ideal) x0 x1 x3 x4 x5 x6 i
      = maxAll 0xFF800000#32 (projMag (val_main_v14 (F := Ideal) x0 x3 x5 x6) x1 x4) := by
  unfold val_main_v24
  refine (hostReduce_eq_maxAll (t := S_) _ 0xFF800000#32 _ (fun _ => rfl) _ _ _).trans ?_
  rw [mag_ref]
  exact maxAll_col _ _

/-- The denominator: one plus the maximum of all entries of `|b|`. -/
theorem part3_ref (x1 : (⟨S2000000, .f32⟩ : BufTy).Contents (Elt Ideal)) (i : S_.Idx) :
    val_main_v27 (F := Ideal) x1 i
      = FloatOps.addf (FloatOps.ofBits .f32 0x3F800000#32) (maxAll 0xFF800000#32 (absf x1)) := by
  rw [val_main_v27_apply, val_main_cst_4_apply]
  refine congrArg (FloatOps.addf (FloatOps.ofBits .f32 0x3F800000#32)) ?_
  unfold val_main_v26
  refine (hostReduce_eq_maxAll (t := S_) _ 0xFF800000#32 _ (fun _ => rfl) _ _ _).trans ?_
  rfl

end Cert.ReferenceIdeal.Hand
end
-- ==== Proof.Bridge.lean ====
/-
  The two programs' results are one function of the arguments.

  The reference's scalar is `maxAll (projMag Ax b w) / (1 + maxAll |b|)` over the flat vectors
  (Proof/ReferenceMax.lean); the kernel's is the same quotient with the three vectors reshaped to 15625 x 128
  (Proof/KernelMax.lean, Proof/KernelRun.lean).  A reshape commutes with every entry-wise operation and keeps the
  maximum of all entries, and the two programs' host lines for `Ax` are the same operations on the same operands
  (`sparse_eq`): so the two scalars are equal, at every argument, on the extended reals.
-/
import proofs.«413770_j62002147885374_3_alg».proof.Proof.KernelMax
import proofs.«413770_j62002147885374_3_alg».proof.Proof.ReferenceMax
import proofs.«413770_j62002147885374_3_alg».proof.Proof.KernelRun

noncomputable section

open Idealize.ShloMosaic

namespace Cert.Bridge

open Cert.FoldAll Cert.Residual

/-- The sparse product is the same term in both programs. -/
theorem sparse_eq (x0 : (⟨Cert.KernelIdeal.S20000000, .f32⟩ : BufTy).Contents (Elt Ideal))
    (x3 : (⟨Cert.KernelIdeal.S2000000x1, .f32⟩ : BufTy).Contents (Elt Ideal))
    (x5 x6 : (⟨Cert.KernelIdeal.S20000000, .i32⟩ : BufTy).Contents (Elt Ideal)) :
    Cert.KernelIdeal.Hand.sparseProduct (F := Ideal) x0 x3 x5 x6 = Cert.ReferenceIdeal.Read.val_main_v14 (F := Ideal) x0 x3 x5 x6 := rfl

/-- The host's quotient of arrays reads, at an index, the quotient of the entries. -/
theorem hdiv_apply {s : Shape} (a b : FVec Ideal s .f32) (i : s.Idx) :
    Host.divf a b i = FloatOps.hostDivf (a i) (b i) := rfl

/-- A reshape reads, at an index, the entry at the index's row-major partner. -/
theorem cast_apply {γ : Type} {s t : Shape} (x : s.Idx → γ) (h : s.ShapeCasts t) (i : t.Idx) :
    shapeCast t x h i = x (Shape.reshapeEquiv h i) := rfl

/-- Reshaping the three arrays and forming `projMag` is forming `projMag` and reshaping. -/
theorem projMag_shapeCast {s t : Shape} (ax b w : FVec Ideal s .f32) (h : s.ShapeCasts t) :
    projMag (shapeCast t ax h) (shapeCast t b h) (shapeCast t w h) = shapeCast t (projMag ax b w) h := rfl

/-- Likewise for an absolute value. -/
theorem absf_shapeCast {s t : Shape} (x : FVec Ideal s .f32) (h : s.ShapeCasts t) :
    absf (shapeCast t x h) = shapeCast t (absf x) h := rfl

/-- The reference's result term is the kernel's `result`. -/
theorem result_eq (x0 : (⟨Cert.KernelIdeal.S20000000, .f32⟩ : BufTy).Contents (Elt Ideal))
    (x1 : (⟨Cert.KernelIdeal.S2000000, .f32⟩ : BufTy).Contents (Elt Ideal))
    (x3 : (⟨Cert.KernelIdeal.S2000000x1, .f32⟩ : BufTy).Contents (Elt Ideal))
    (x4 : (⟨Cert.KernelIdeal.S2000000, .f32⟩ : BufTy).Contents (Elt Ideal))
    (x5 x6 : (⟨Cert.KernelIdeal.S20000000, .i32⟩ : BufTy).Contents (Elt Ideal)) :
    Cert.ReferenceIdeal.Read.val_main_v28 (F := Ideal) x0 x1 x3 x4 x5 x6
      = Cert.KernelIdeal.Hand.result (F := Ideal) x0 x1 x3 x4 x5 x6 := by
  funext i
  rw [Cert.ReferenceIdeal.Read.val_main_v28_apply, Cert.ReferenceIdeal.Hand.part2_ref, Cert.ReferenceIdeal.Hand.part3_ref]
  unfold Cert.KernelIdeal.Hand.result
  rw [hdiv_apply, cast_apply, cast_apply, Cert.KernelIdeal.Hand.pay2_eq, Cert.KernelIdeal.Hand.pay3_eq,
    projMag_shapeCast, maxAll_shapeCast, absf_shapeCast, maxAll_shapeCast, sparse_eq]

end Cert.Bridge

end
-- ==== Proof.lean ====
/-
  The projected residual's infinity norm over one plus the infinity norm of b: a Pallas kernel against its jnp
  reference, equal over the extended reals.

  Both programs first form the sparse product `Ax` on the host, with the very same host lines (gather `x` at the
  column indices, scale by the values, scatter-add by the row indices), and both end with the host's division of
  `max |y + w * max(-y, 0)|` by `1 + max |b|`, where `y = Ax - b` and `w` is the inequality indicator.  They differ
  in where the two maxima are taken:

  * the KERNEL reshapes `Ax`, `b`, `w` to 15625 x 128 tiles and reduces each whole tile inside one grid point
    (negating by `0 - y`);
  * the REFERENCE lifts them to 2000000 x 1 columns and reduces with `stablehlo.reduce` (negating with `negate`).

  On the extended reals `0 - y = -y`, the absolute values are one function, and a maximum of all entries does not
  depend on how the two million entries are laid out (Proof/LibMaxAll.lean): the tile and the column hold the
  entries of one flat vector, each read through a bijection of indices.  No law used needs finite inputs, so the
  precondition is never opened.

  Modules: Proof/LibMaxAll.lean (the maximum of all entries and its invariance), Proof/ProjectedResidual.lean (the
  entry-wise function), Proof/KernelMax.lean (the kernel body's two stored values), Proof/KernelRun.lean (the
  kernel program's result read off its frame run), Proof/ReferenceMax.lean (the reference's two maxima),
  Proof/Bridge.lean (the two results are one function of the arguments).  The three frames and the reference's
  run are the generated modules'; `preserves` has no entry to state.
-/
import proofs.«413770_j62002147885374_3_alg».proof.Defs
import proofs.«413770_j62002147885374_3_alg».proof.Proof.Gen.Kernel
import proofs.«413770_j62002147885374_3_alg».proof.Proof.Gen.Kernel.Skeleton
import proofs.«413770_j62002147885374_3_alg».proof.Proof.Gen.Kernel.Launch
import proofs.«413770_j62002147885374_3_alg».proof.Proof.Gen.Kernel.Points
import proofs.«413770_j62002147885374_3_alg».proof.Proof.Gen.Kernel.Frame
import proofs.«413770_j62002147885374_3_alg».proof.Proof.Gen.KernelIdeal
import proofs.«413770_j62002147885374_3_alg».proof.Proof.Gen.KernelIdeal.Skeleton
import proofs.«413770_j62002147885374_3_alg».proof.Proof.Gen.KernelIdeal.Launch
import proofs.«413770_j62002147885374_3_alg».proof.Proof.Gen.KernelIdeal.Points
import proofs.«413770_j62002147885374_3_alg».proof.Proof.Gen.KernelIdeal.Frame
import proofs.«413770_j62002147885374_3_alg».proof.Proof.Gen.ReferenceIdeal
import proofs.«413770_j62002147885374_3_alg».proof.Proof.Gen.Pre_finite_inputs
import proofs.«413770_j62002147885374_3_alg».proof.Proof.Gen.ReferenceIdeal.Run
import proofs.«413770_j62002147885374_3_alg».proof.Proof.Gen.ReferenceIdeal.Read
import proofs.«413770_j62002147885374_3_alg».proof.Proof.KernelRun
import proofs.«413770_j62002147885374_3_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with one and the same scalar: the kernel's is
    `result` of its arguments (Proof/KernelRun.lean), the reference's its run's term, and the two are one function
    (Proof/Bridge.lean). -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, e3, e4, e5, e6⟩ := hagree c
  rw [e0, e1, e3, e4, e5, e6]
  exact (Cert.ReferenceIdeal.Read.val_main_v28_eq _ _ _ _ _ _).trans (Cert.Bridge.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
